-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x196x768 : Shape := ⟨3, ![16, 196, 768]⟩
abbrev S768x512 : Shape := ⟨2, ![768, 512]⟩
abbrev S512x128 : Shape := ⟨2, ![512, 128]⟩
abbrev S128 : Shape := ⟨1, ![128]⟩
abbrev S_ : Shape := ⟨0, ![]⟩

class Facts : Prop where
  bcast_S_S16x196x768 : S_.BroadcastsInDim S16x196x768 (![] : Fin 0 → Fin S16x196x768.rank)
  reducesTo_S16x196x768_S_d0_1_2 : S16x196x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S512x128 .f32) (main_arg5 : FVec F S128 .f32) (main_v13 : IVec S_ 1) (main_v16 : IVec S768x512 1) : IVec S_ 1 :=
  let main_c_5 : IVec S_ 1 := constantI S_ 1 1#1
  let main_v17 : IVec S_ 1 := (fun x v => Host.reduce IntOp.andi x v reducesTo_S768x512_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S16x196x768 .f32) (main_arg1 : FVec F S16x196x768 .f32) (main_arg2 : FVec F S768x512 .f32) (main_arg3 : FVec F S768x512 .f32) (main_arg4 : FVec F S512x128 .f32) (main_arg5 : FVec F S128 .f32) : IVec S_ 1 :=
  let main_v0 : FVec F S16x196x768 .f32 := Host.absf main_arg0
  let main_cst : FVec F S_ .f32 := constant S_ .f32 0x7F800000#32
  let main_v1 : FVec F S16x196x768 .f32 := broadcastInDim S16x196x768 ![] bcast_S_S16x196x768 main_cst
  let main_v2 : IVec S16x196x768 1 := cmpf .olt main_v0 main_v1
  let main_c : IVec S_ 1 := constantI S_ 1 1#1
  let main_v3 : IVec S_ 1 := (fun x v => Host.reduce IntOp.andi x v reducesTo_S16x196x768_S_d0_1_2 h_S_) main_v2 main_c
  let main_v4 : FVec F S16x196x768 .f32 := Host.absf main_arg1
  let main_cst_0 : FVec F S_ .f32 := constant S_ .f32 0x7F800000#32
  let main_v5 : FVec F S16x196x768 .f32 := broadcastInDim S16x196x768 ![] bcast_S_S16x196x768 main_cst_0
  let main_v6 : IVec S16x196x768 1 := cmpf .olt main_v4 main_v5
  let main_c_1 : IVec S_ 1 := constantI S_ 1 1#1
  let main_v7 : IVec S_ 1 := (fun x v => Host.reduce IntOp.andi x v reducesTo_S16x196x768_S_d0_1_2 h_S_) main_v6 main_c_1
  let main_v8 : IVec S_ 1 := andi main_v3 main_v7
  let main_v9 : FVec F S768x512 .f32 := Host.absf main_arg2
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  let main_v14 : FVec F S768x512 .f32 := Host.absf main_arg3
  let main_cst_4 : FVec F S_ .f32 := constant S_ .f32 0x7F800000#32
  let main_v15 : FVec F S768x512 .f32 := broadcastInDim S768x512 ![] bcast_S_S768x512 main_cst_4
  let main_v16 : IVec S768x512 1 := cmpf .olt main_v14 main_v15
  fn_part1 (F := F) main_arg4 main_arg5 main_v13 main_v16
-- ==== Kernel.lean ====
abbrev S16x196x768 : Shape := ⟨3, ![16, 196, 768]⟩
abbrev S768x512 : Shape := ⟨2, ![768, 512]⟩
abbrev S512x128 : Shape := ⟨2, ![512, 128]⟩
abbrev S128 : Shape := ⟨1, ![128]⟩
abbrev S16x128 : Shape := ⟨2, ![16, 128]⟩
abbrev S8x196x768 : Shape := ⟨3, ![8, 196, 768]⟩
abbrev S8x128 : Shape := ⟨2, ![8, 128]⟩
abbrev S1568x768 : Shape := ⟨2, ![1568, 768]⟩
abbrev S1568x512 : Shape := ⟨2, ![1568, 512]⟩
abbrev S8x196x512 : Shape := ⟨3, ![8, 196, 512]⟩
abbrev S8x512 : Shape := ⟨2, ![8, 512]⟩
abbrev S1x128 : Shape := ⟨2, ![1, 128]⟩

abbrev nBuf : Space → Nat
  | .hbm => 7
  | .vmem => 10
  | .smem => 0
  | _ => 0

abbrev bufTy : (tb : Table) → Fin (tcTables nBuf tb) → BufTy
  | .hbm, ⟨0, _⟩ => ⟨S16x196x768, .f32⟩
  | .hbm, ⟨1, _⟩ => ⟨S16x196x768, .f32⟩
  | .hbm, ⟨2, _⟩ => ⟨S768x512, .f32⟩
  | .hbm, ⟨3, _⟩ => ⟨S768x512, .f32⟩
  | .hbm, ⟨4, _⟩ => ⟨S512x128, .f32⟩
  | .hbm, ⟨5, _⟩ => ⟨S128, .f32⟩
  | .hbm, ⟨6, _⟩ => ⟨S16x128, .f32⟩
  | .local _ .vmem, ⟨0, _⟩ => ⟨S8x196x768, .f32⟩
  | .local _ .vmem, ⟨1, _⟩ => ⟨S8x196x768, .f32⟩
  | .local _ .vmem, ⟨2, _⟩ => ⟨S8x196x768, .f32⟩
  | .local _ .vmem, ⟨3, _⟩ => ⟨S8x196x768, .f32⟩
  | .local _ .vmem, ⟨4, _⟩ => ⟨S768x512, .f32⟩
  | .local _ .vmem, ⟨5, _⟩ => ⟨S768x512, .f32⟩
  | .local _ .vmem, ⟨6, _⟩ => ⟨S512x128, .f32⟩
  | .local _ .vmem, ⟨7, _⟩ => ⟨S128, .f32⟩
  | .local _ .vmem, ⟨8, _⟩ => ⟨S8x128, .f32⟩
  | .local _ .vmem, ⟨9, _⟩ => ⟨S8x128, .f32⟩
  | _, _ => ⟨S16x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x196x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S8x196x768_S8x196x768_0_0_0 : ∀ a, (![0, 0, 0] : Fin 3 → Nat) a + S8x196x768.size a ≤ S8x196x768.size a
  h_S8x196x768 : 0 < S8x196x768.numel
  shapeCasts_S8x196x768_S1568x768 : S8x196x768.ShapeCasts S1568x768
  bitsLt_bf16_f32 : FTy.bits .bf16 < FTy.bits .f32
  inb_S768x512_S768x512_0_0 : ∀ a, (![0, 0] : Fin 2 → Nat) a + S768x512.size a ≤ S768x512.size a
  h_S768x512 : 0 < S768x512.numel
  shapeCasts_S1568x512_S8x196x512 : S1568x512.ShapeCasts S8x196x512
  reduces_S8x196x512_S8x512 : S8x196x512.Reduces [1] S8x512
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  dot_S1568x768_S768x512_S1568x512_1_0_0_1_n_n_wf : DotDims.WF S1568x768 S768x512 S1568x512 [1] [0] [0] [1] [] []
  dot_S8x512_S512x128_S8x128_1_0_0_1_n_n_wf : DotDims.WF S8x512 S512x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x196x768.size a ≤ S16x196x768.size a
  hwx0_0 : ∀ i : grid0.Coords, EltTy.bits .f32 = 32 ∨ (Rect.block (s := S16x196x768) S8x196x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x196x768.size a ≤ S16x196x768.size a
  hwx0_1 : ∀ i : grid0.Coords, EltTy.bits .f32 = 32 ∨ (Rect.block (s := S16x196x768) S8x196x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .f32 = 32 ∨ (Rect.block (s := S768x512) S768x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .f32 = 32 ∨ (Rect.block (s := S768x512) S768x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)

variable [Facts₀]

def dot_S1568x768_S768x512_S1568x512_1_0_0_1_n_n : DotDims S1568x768 S768x512 S1568x512 where
  lhsContracting := [1]
  rhsContracting := [0]
  lhsNonContracting := [0]
  rhsNonContracting := [1]
  lhsBatch := []
  rhsBatch := []
  wf := dot_S1568x768_S768x512_S1568x512_1_0_0_1_n_n_wf
def dot_S8x512_S512x128_S8x128_1_0_0_1_n_n : DotDims S8x512 S512x128 S8x128 where
  lhsContracting := [1]
  rhsContracting := [0]
  lhsNonContracting := [0]
  rhsNonContracting := [1]
  lhsBatch := []
  rhsBatch := []
  wf := dot_S8x512_S512x128_S8x128_1_0_0_1_n_n_wf

abbrev win0_0 : Pipeline.Window sig grid0 :=
  Pipeline.Window.ofSpec (Memref.whole main_arg0) S8x196x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x196x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x196x768 : Shape := ⟨3, ![16, 196, 768]⟩
abbrev S768x512 : Shape := ⟨2, ![768, 512]⟩
abbrev S512x128 : Shape := ⟨2, ![512, 128]⟩
abbrev S128 : Shape := ⟨1, ![128]⟩
abbrev S16x196x512 : Shape := ⟨3, ![16, 196, 512]⟩
abbrev S_ : Shape := ⟨0, ![]⟩
abbrev S16x512 : Shape := ⟨2, ![16, 512]⟩
abbrev S16x128 : Shape := ⟨2, ![16, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S16x196x768, .f32⟩
  | .hbm, ⟨1, _⟩ => ⟨S16x196x768, .f32⟩
  | .hbm, ⟨2, _⟩ => ⟨S768x512, .f32⟩
  | .hbm, ⟨3, _⟩ => ⟨S768x512, .f32⟩
  | .hbm, ⟨4, _⟩ => ⟨S512x128, .f32⟩
  | .hbm, ⟨5, _⟩ => ⟨S128, .f32⟩
  | .hbm, ⟨6, _⟩ => ⟨S16x196x512, .f32⟩
  | .hbm, ⟨7, _⟩ => ⟨S_, .f32⟩
  | .hbm, ⟨8, _⟩ => ⟨S16x196x512, .f32⟩
  | .hbm, ⟨9, _⟩ => ⟨S16x196x512, .f32⟩
  | .hbm, ⟨10, _⟩ => ⟨S16x196x512, .f32⟩
  | .hbm, ⟨11, _⟩ => ⟨S_, .f32⟩
  | .hbm, ⟨12, _⟩ => ⟨S16x196x512, .f32⟩
  | .hbm, ⟨13, _⟩ => ⟨S16x196x512, .f32⟩
  | .hbm, ⟨14, _⟩ => ⟨S_, .f32⟩
  | .hbm, ⟨15, _⟩ => ⟨S16x512, .f32⟩
  | .hbm, ⟨16, _⟩ => ⟨S_, .f32⟩
  | .hbm, ⟨17, _⟩ => ⟨S16x512, .f32⟩
  | .hbm, ⟨18, _⟩ => ⟨S16x512, .f32⟩
  | .hbm, ⟨19, _⟩ => ⟨S16x128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S16x128, .f32⟩
  | .hbm, ⟨25, _⟩ => ⟨S16x128, .f32⟩
  | _, _ => ⟨S16x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_cst : Ref sig .tc := ⟨.hbm, 11, rfl⟩
abbrev main_call1_v0 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  bcast_S_S16x196x512 : S_.BroadcastsInDim S16x196x512 (![] : Fin 0 → Fin S16x196x512.rank)
  reducesTo_S16x196x512_S16x512_d1 : S16x196x512.ReducesTo [1] S16x512
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  dot_S16x196x768_S768x512_S16x196x512_2_0_01_1_n_n_wf : DotDims.WF S16x196x768 S768x512 S16x196x512 [2] [0] [0, 1] [1] [] []
  dot_S16x512_S512x128_S16x128_1_0_0_1_n_n_wf : DotDims.WF S16x512 S512x128 S16x128 [1] [0] [0] [1] [] []

variable [Facts₀]

def dot_S16x196x768_S768x512_S16x196x512_2_0_01_1_n_n : DotDims S16x196x768 S768x512 S16x196x512 where
  lhsContracting := [2]
  rhsContracting := [0]
  lhsNonContracting := [0, 1]
  rhsNonContracting := [1]
  lhsBatch := []
  rhsBatch := []
  wf := dot_S16x196x768_S768x512_S16x196x512_2_0_01_1_n_n_wf
def dot_S16x512_S512x128_S16x128_1_0_0_1_n_n : DotDims S16x512 S512x128 S16x128 where
  lhsContracting := [1]
  rhsContracting := [0]
  lhsNonContracting := [0]
  rhsNonContracting := [1]
  lhsBatch := []
  rhsBatch := []
  wf := dot_S16x512_S512x128_S16x128_1_0_0_1_n_n_wf

class Facts : Prop extends Facts₀ where

variable [Facts]
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.RowFormula.lean ====
/-
  What both programs compute, one batch row at a time.

  A batch row carries two token matrices `xr1, xr2` (196 tokens of 768 features each). With weights `W1, W2` (768 × 512),
  a projection `Wp` (512 × 128) and a bias `bp` (128):

  * `pooled xr W h` is column `h` of `relu (xr · W)` summed over the 196 tokens;
  * the row's result at output column `o` is
      `∑ h, (pooled xr1 W1 h * pooled xr2 W2 h) * Wp (h, o) + bp o * 38416`,
    the bias counted once per pair of tokens, `196 · 196 = 38416` times.

  The rectifier's `0` and the factor `38416` stay the words both programs print (`0x00000000`, `0x47161000`): the same
  word stands on both sides, so neither is ever evaluated. No law of the extended reals beyond what `+` and `*` are is
  needed: the kernel and the reference add and multiply the same numbers in the same grouping, only laid out differently
  (the kernel flattens batch and token into one row axis and works on eight batch rows at a time).
-/
import Idealize.ShloMosaic.PureOps.Ideal
import Idealize.ShloMosaic.Lib.ValueIdx

noncomputable section

namespace Cert.RowFormula

open Idealize.ShloMosaic Idealize.ShloMosaic.ValueIdx

/-- Column `h` of the rectified product of a row's token matrix with the weights, summed over the tokens. -/
def pooled (xr : Fin 196 → Fin 768 → EReal) (W : (⟨2, ![768, 512]⟩ : Shape).Idx → EReal) (h : Fin 512) : EReal :=
  ∑ n : Fin 196, max (∑ c : Fin 768, xr n c * W (ix2 c h)) (Ideal.ofBits .f32 0x00000000#32)

/-- One batch row's result at output column `o`. -/
def outRow (xr1 xr2 : Fin 196 → Fin 768 → EReal) (W1 W2 : (⟨2, ![768, 512]⟩ : Shape).Idx → EReal)
    (Wp : (⟨2, ![512, 128]⟩ : Shape).Idx → EReal) (bp : (⟨1, ![128]⟩ : Shape).Idx → EReal) (o : Fin 128) : EReal :=
  (∑ h : Fin 512, (pooled xr1 W1 h * pooled xr2 W2 h) * Wp (ix2 h o)) + bp (ix1 o) * Ideal.ofBits .f32 0x47161000#32

/-- Batch row `b` of a `[B, 196, 768]` array as a token matrix. -/
def rowOf {B : ℕ} (x : (⟨3, ![B, 196, 768]⟩ : Shape).Idx → EReal) (b : Fin B) : Fin 196 → Fin 768 → EReal :=
  fun n c => x (ix3 b n c)

/-- The whole `[16, 128]` result: entry `(b, o)` is batch row `b`'s result at column `o`. -/
def result (x1 x2 : (⟨3, ![16, 196, 768]⟩ : Shape).Idx → EReal) (W1 W2 : (⟨2, ![768, 512]⟩ : Shape).Idx → EReal)
    (Wp : (⟨2, ![512, 128]⟩ : Shape).Idx → EReal) (bp : (⟨1, ![128]⟩ : Shape).Idx → EReal) :
    (⟨2, ![16, 128]⟩ : Shape).Idx → EReal :=
  fun i => outRow (rowOf x1 (i 0)) (rowOf x2 (i 0)) W1 W2 Wp bp (i 1)

theorem result_apply (x1 x2 : (⟨3, ![16, 196, 768]⟩ : Shape).Idx → EReal) (W1 W2 : (⟨2, ![768, 512]⟩ : Shape).Idx → EReal)
    (Wp : (⟨2, ![512, 128]⟩ : Shape).Idx → EReal) (bp : (⟨1, ![128]⟩ : Shape).Idx → EReal) (b : Fin 16) (o : Fin 128) :
    result x1 x2 W1 W2 Wp bp (ix2 b o) = outRow (rowOf x1 b) (rowOf x2 b) W1 W2 Wp bp o := rfl

end Cert.RowFormula

end
-- ==== Proof.BlockRow.lean ====
/-
  The kernel body's value, one entry at a time.

  At a grid point the body holds eight batch rows of each token array. It flattens `[8, 196, 768]` to `[1568, 768]`
  (row `196 p + n` is token `n` of batch row `p`), multiplies by the weights, rectifies, folds the 1568 rows back to
  `[8, 196, 512]` and sums over the tokens: entry `(p, h)` of that is `pooled` of batch row `p` at column `h`. The product
  of the two pooled arrays goes through the projection and the bias row is added to every batch row: entry `(p, q)` of what
  the body stores is `outRow` of batch row `p` of the two blocks at column `q`. The format changes to bf16 are the identity
  on extended reals.
-/
import proofs.«164623_j90563680403989_1_alg».proof.Proof.Gen.KernelIdeal.Skeleton
import proofs.«164623_j90563680403989_1_alg».proof.Proof.LibPlainDot
import proofs.«164623_j90563680403989_1_alg».proof.Proof.RowFormula
import Idealize.ShloMosaic.Lib.Pipeline.Value
import Idealize.ShloMosaic.Lib.ValueIdx
import Idealize.ShloMosaic.PureOps.Ideal.Laws

noncomputable section

namespace Cert.KernelIdeal.BlockRow

open Cert.KernelIdeal Cert.KernelIdeal.Gen Idealize.ShloMosaic Idealize.ShloMosaic.ValueIdx Cert.RowFormula

/-- Row `196 p + n` of the flattened block is token `n` of batch row `p`. -/
theorem flat_row (x : FVec Ideal S8x196x768 .f32) (p : Fin 8) (n : Fin 196) (c : Fin 768) :
    shapeCast S1568x768 x shapeCasts_S8x196x768_S1568x768 (ix2 (⟨196 * p.val + n.val, by omega⟩ : Fin 1568) c) = x (ix3 p n c) :=
  shapeCast_apply x shapeCasts_S8x196x768_S1568x768 _ (ix3 p n c) (by
    rw [Shape.rowMajor_val_three, Shape.rowMajor_val_two]
    show (p.val * 196 + n.val) * 768 + c.val = (196 * p.val + n.val) * 768 + c.val
    omega)

/-- Entry `(p, n, h)` of the product folded back to three axes is row `196 p + n` of the flat product. -/
theorem fold_row (y : FVec Ideal S1568x512 .f32) (p : Fin 8) (n : Fin 196) (h : Fin 512) :
    shapeCast S8x196x512 y shapeCasts_S1568x512_S8x196x512 (ix3 p n h) = y (ix2 (⟨196 * p.val + n.val, by omega⟩ : Fin 1568) h) :=
  shapeCast_apply y shapeCasts_S1568x512_S8x196x512 _ (ix2 (⟨196 * p.val + n.val, by omega⟩ : Fin 1568) h) (by
    rw [Shape.rowMajor_val_three, Shape.rowMajor_val_two]
    show (196 * p.val + n.val) * 512 + h.val = (p.val * 196 + n.val) * 512 + h.val
    omega)

/-- The token sum of the rectified flat product, at `(p, h)`: `pooled` of batch row `p` of the block. -/
theorem pooled_block (x : FVec Ideal S8x196x768 .f32) (W : FVec Ideal S768x512 .f32) (p : Fin 8) (h : Fin 512) :
    multiReduction .add [1] S8x512
      (shapeCast S8x196x512
        (maximumf
          (matmul dot_S1568x768_S768x512_S1568x512_1_0_0_1_n_n none
            (truncf .bf16 (shapeCast S1568x768 x shapeCasts_S8x196x768_S1568x768) bitsLt_bf16_f32)
            (truncf .bf16 W bitsLt_bf16_f32) (constant S1568x512 .f32 0x00000000#32))
          (broadcast S1568x512 (Scalar.ofBits .f32 0x00000000#32)))
        shapeCasts_S1568x512_S8x196x512)
      0x00000000#32 reduces_S8x196x512_S8x512 (.inl rfl) rfl (ix2 p h)
    = pooled (rowOf x p) W h := by
  refine (Ideal.multiReduction_add_single _ 0x00000000#32 reduces_S8x196x512_S8x512 (.inl rfl) rfl (ix2 p h)).trans ?_
  unfold pooled
  refine Finset.sum_congr rfl fun (n : Fin 196) _ => ?_
  have hl : reduces_S8x196x512_S8x512.lift (ix2 p h) n = ix3 p n h :=
    funext fun a => Fin.ext (by match a with | ⟨0, _⟩ => rfl | ⟨1, _⟩ => rfl | ⟨2, _⟩ => rfl)
  rw [hl, fold_row]
  show max (FloatOps.matmul dot_S1568x768_S768x512_S1568x512_1_0_0_1_n_n none _ _ (constant S1568x512 .f32 0x00000000#32)
      (ix2 (⟨196 * p.val + n.val, by omega⟩ : Fin 1568) h)) (Ideal.ofBits .f32 0x00000000#32) = _
  rw [Cert.PlainDot.matmul_zero_apply dot_S1568x768_S768x512_S1568x512_1_0_0_1_n_n rfl rfl rfl rfl rfl rfl]
  refine congrArg (max · _) (Finset.sum_congr rfl fun c _ => ?_)
  show shapeCast S1568x768 x shapeCasts_S8x196x768_S1568x768 (ix2 (⟨196 * p.val + n.val, by omega⟩ : Fin 1568) c) * W (ix2 c h) = _
  rw [flat_row]
  rfl

/-- The bias row scaled, given a leading unit axis and repeated down the eight batch rows, at `(p, q)`. -/
theorem bias_block (b : FVec Ideal S128 .f32) (p : Fin 8) (q : Fin 128) :
    broadcastTo S8x128
      (shapeCast S1x128 (mulf b (broadcast S128 (Scalar.ofBits .f32 0x47161000#32))) shapeCasts_S128_S1x128)
      broadcasts_S1x128_S8x128 (ix2 p q)
    = b (ix1 q) * Ideal.ofBits .f32 0x47161000#32 := by
  refine (broadcastTo_apply _ broadcasts_S1x128_S8x128 (ix2 p q) (ix2 (0 : Fin 1) q) (fun a => by
    match a with
    | ⟨0, _⟩ => rfl
    | ⟨1, _⟩ => rfl)).trans ?_
  refine (shapeCast_apply _ shapeCasts_S128_S1x128 (ix2 (0 : Fin 1) q) (ix1 q) (by
    rw [Shape.rowMajor_val_one, Shape.rowMajor_val_two]
    show q.val = 0 * 128 + q.val
    omega)).trans ?_
  rfl

/-- THE BODY'S STORED VALUE at `(p, q)`: batch row `p` of the two token blocks through `outRow`. -/
theorem pay_apply (x1 : FVec Ideal S8x196x768 .f32) (W1 : FVec Ideal S768x512 .f32) (x2 : FVec Ideal S8x196x768 .f32)
    (W2 : FVec Ideal S768x512 .f32) (Wp : FVec Ideal S512x128 .f32) (b : FVec Ideal S128 .f32) (p : Fin 8) (q : Fin 128) :
    k0_pay1 (F := Ideal) x1 W1 x2 W2 Wp b (ix2 p q) = outRow (rowOf x1 p) (rowOf x2 p) W1 W2 Wp b q := by
  unfold k0_pay1 outRow
  show FloatOps.matmul dot_S8x512_S512x128_S8x128_1_0_0_1_n_n none _ _ (constant S8x128 .f32 0x00000000#32) (ix2 p q) + _ = _
  rw [Cert.PlainDot.matmul_zero_apply dot_S8x512_S512x128_S8x128_1_0_0_1_n_n rfl rfl rfl rfl rfl rfl, bias_block]
  refine congrArg (· + _) (Finset.sum_congr rfl fun h _ => ?_)
  refine congrArg (· * _) ?_
  exact congrArg₂ (fun a b : EReal => a * b) (pooled_block x1 W1 p h) (pooled_block x2 W2 p h)

end Cert.KernelIdeal.BlockRow

end
-- ==== Proof.WholeArray.lean ====
/-
  From the eight-row blocks to the whole result array.

  The grid has two points; point `t` works on batch rows `8 t … 8 t + 7`: its two token blocks are those rows of the token
  arrays, the weights, the projection and the bias are staged whole, and its output block is rows `8 t … 8 t + 7` of the
  `[16, 128]` result. By the body's value (`BlockRow.pay_apply`) entry `(p, q)` of what point `t` writes back is `outRow` of
  batch row `8 t + p` at column `q`, which is entry `(8 t + p, q)` of `result` of the whole argument arrays. The two output
  blocks cover the array (row `r` lies in the block of point `r / 8`), so the array ends holding `result`.
-/
import proofs.«164623_j90563680403989_1_alg».proof.Proof.Gen.KernelIdeal.Value
import proofs.«164623_j90563680403989_1_alg».proof.Proof.BlockRow

noncomputable section

namespace Cert.KernelIdeal.WholeArray

open Cert.KernelIdeal Cert.KernelIdeal.Gen Idealize.ShloMosaic Idealize.ShloMosaic.TcCoe Idealize.SL.Sem
open Idealize.ShloMosaic.ValueIdx Cert.RowFormula
open Idealize.ShloMosaic.Pipeline (Dat)

variable (m : (ℓ : Loc nD τ sig) → Buf (Elt Ideal) ℓ) (ρ : Dev nD → PrngReg)

theorem zero_off1 : (![0] : Fin 1 → Nat) = fun _ => 0 := funext fun a => by fin_cases a <;> rfl
theorem zero_off2 : (![0, 0] : Fin 2 → Nat) = fun _ => 0 := funext fun a => by fin_cases a <;> rfl
theorem zero_off3 : (![0, 0, 0] : Fin 3 → Nat) = fun _ => 0 := funext fun a => by fin_cases a <;> rfl

/-- `result` of core `c`'s six argument arrays as launched. -/
abbrev whole (c : Dev nD) : S16x128.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The printed index maps over the two grid points: the token windows' batch block is the output's, every other block
    index is `0`, and the output's batch block index is at most `1`. -/
theorem block_indices : ∀ t : Fin cfg0.N,
    win0_0.index t (0 : Fin 3) = win0_6.index t (0 : Fin 2) ∧ win0_0.index t (1 : Fin 3) = 0 ∧ win0_0.index t (2 : Fin 3) = 0
    ∧ win0_1.index t (0 : Fin 3) = win0_6.index t (0 : Fin 2) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 1 :=
  (by decide +kernel : ∀ t : Fin grid0.N, _)

/-- Each of the two batch blocks is some point's. -/
theorem block_onto : ∀ q0 : Fin 2, ∃ t : Fin cfg0.N, win0_6.index t (0 : Fin 2) = q0.val :=
  (by decide +kernel : ∀ q0 : Fin 2, ∃ t : Fin grid0.N, win0_6.index t (0 : Fin 2) = q0.val)

/-- WHAT POINT `t` WRITES BACK is block `t` of `result` of the argument arrays. -/
theorem flushed_eq (c : Dev nD) (t : Fin cfg0.N) :
    (dats m 0 c).flushed 6 t = ((cfg0.win 6).blk t).view.read (Elt Ideal) (whole m c) := by
  rw [Value.flushed6]
  unfold out0_6
  rw [View.canon_unit_zero zero_off2]
  simp only [View.ld_unit_zero (S := S8x196x768) zero_off3, View.ld_unit_zero (S := S768x512) zero_off2,
    View.ld_unit_zero (S := S512x128) zero_off2, View.ld_unit_zero (S := S128) zero_off1]
  obtain ⟨a0, a1, a2, b0, b1, b2, c0, c1, d0, d1, e0, e1, f0, g1, g0⟩ := block_indices t
  funext j
  obtain ⟨p, q, rfl⟩ : ∃ (p : Fin 8) (q : Fin 128), j = ix2 p q := ⟨j 0, j 1, eq_ix2 j⟩
  show k0_pay1 (F := Ideal) (iblk m c 0 t) (iblk m c 2 t) (iblk m c 1 t) (iblk m c 3 t) (iblk m c 4 t) (iblk m c 5 t) (ix2 p q)
    = whole m c (((cfg0.win 6).blk t).view.emb (ix2 p q))
  refine (BlockRow.pay_apply (iblk m c 0 t) (iblk m c 2 t) (iblk m c 1 t) (iblk m c 3 t) (iblk m c 4 t) (iblk m c 5 t) p q).trans ?_
  have hb : win0_6.index t (0 : Fin 2) * 8 + p.val < 16 := by have := p.isLt; omega
  have hi : ((cfg0.win 6).blk t).view.emb (ix2 p q) = ix2 (⟨win0_6.index t (0 : Fin 2) * 8 + p.val, hb⟩ : Fin 16) q := by
    funext a; apply Fin.ext
    match a with
    | ⟨0, _⟩ => show win0_6.index t (0 : Fin 2) * 8 + 1 * p.val = win0_6.index t (0 : Fin 2) * 8 + p.val; omega
    | ⟨1, _⟩ => show win0_6.index t (1 : Fin 2) * 128 + 1 * q.val = q.val; omega
  rw [hi]
  show _ = result _ _ _ _ _ _ (ix2 (⟨win0_6.index t (0 : Fin 2) * 8 + p.val, hb⟩ : Fin 16) q)
  rw [result_apply]
  have r0 : rowOf (iblk m c 0 t) p = rowOf (m ((c : Thread nD τ).loc main_arg0)) (⟨win0_6.index t (0 : Fin 2) * 8 + p.val, hb⟩ : Fin 16) := by
    funext n k
    show m ((c : Thread nD τ).loc main_arg0) (((cfg0.win 0).blk t).view.emb (ix3 p n k)) = m ((c : Thread nD τ).loc main_arg0) (ix3 (⟨win0_6.index t (0 : Fin 2) * 8 + p.val, hb⟩ : Fin 16) n k)
    refine congrArg _ (funext fun a => Fin.ext ?_)
    match a with
    | ⟨0, _⟩ => show win0_0.index t (0 : Fin 3) * 8 + 1 * p.val = win0_6.index t (0 : Fin 2) * 8 + p.val; omega
    | ⟨1, _⟩ => show win0_0.index t (1 : Fin 3) * 196 + 1 * n.val = n.val; omega
    | ⟨2, _⟩ => show win0_0.index t (2 : Fin 3) * 768 + 1 * k.val = k.val; omega
  have r1 : rowOf (iblk m c 1 t) p = rowOf (m ((c : Thread nD τ).loc main_arg1)) (⟨win0_6.index t (0 : Fin 2) * 8 + p.val, hb⟩ : Fin 16) := by
    funext n k
    show m ((c : Thread nD τ).loc main_arg1) (((cfg0.win 1).blk t).view.emb (ix3 p n k)) = m ((c : Thread nD τ).loc main_arg1) (ix3 (⟨win0_6.index t (0 : Fin 2) * 8 + p.val, hb⟩ : Fin 16) n k)
    refine congrArg _ (funext fun a => Fin.ext ?_)
    match a with
    | ⟨0, _⟩ => show win0_1.index t (0 : Fin 3) * 8 + 1 * p.val = win0_6.index t (0 : Fin 2) * 8 + p.val; omega
    | ⟨1, _⟩ => show win0_1.index t (1 : Fin 3) * 196 + 1 * n.val = n.val; omega
    | ⟨2, _⟩ => show win0_1.index t (2 : Fin 3) * 768 + 1 * k.val = k.val; omega
  have w2 : iblk m c 2 t = m ((c : Thread nD τ).loc main_arg2) := by
    funext y
    show m ((c : Thread nD τ).loc main_arg2) (((cfg0.win 2).blk t).view.emb y) = m ((c : Thread nD τ).loc main_arg2) y
    refine congrArg _ (funext fun a => Fin.ext ?_)
    match a with
    | ⟨0, _⟩ => show win0_2.index t (0 : Fin 2) * 768 + 1 * (y 0).val = (y 0).val; omega
    | ⟨1, _⟩ => show win0_2.index t (1 : Fin 2) * 512 + 1 * (y 1).val = (y 1).val; omega
  have w3 : iblk m c 3 t = m ((c : Thread nD τ).loc main_arg3) := by
    funext y
    show m ((c : Thread nD τ).loc main_arg3) (((cfg0.win 3).blk t).view.emb y) = m ((c : Thread nD τ).loc main_arg3) y
    refine congrArg _ (funext fun a => Fin.ext ?_)
    match a with
    | ⟨0, _⟩ => show win0_3.index t (0 : Fin 2) * 768 + 1 * (y 0).val = (y 0).val; omega
    | ⟨1, _⟩ => show win0_3.index t (1 : Fin 2) * 512 + 1 * (y 1).val = (y 1).val; omega
  have w4 : iblk m c 4 t = m ((c : Thread nD τ).loc main_arg4) := by
    funext y
    show m ((c : Thread nD τ).loc main_arg4) (((cfg0.win 4).blk t).view.emb y) = m ((c : Thread nD τ).loc main_arg4) y
    refine congrArg _ (funext fun a => Fin.ext ?_)
    match a with
    | ⟨0, _⟩ => show win0_4.index t (0 : Fin 2) * 512 + 1 * (y 0).val = (y 0).val; omega
    | ⟨1, _⟩ => show win0_4.index t (1 : Fin 2) * 128 + 1 * (y 1).val = (y 1).val; omega
  have w5 : iblk m c 5 t = m ((c : Thread nD τ).loc main_arg5) := by
    funext y
    show m ((c : Thread nD τ).loc main_arg5) (((cfg0.win 5).blk t).view.emb y) = m ((c : Thread nD τ).loc main_arg5) y
    refine congrArg _ (funext fun a => Fin.ext ?_)
    match a with
    | ⟨0, _⟩ => show win0_5.index t (0 : Fin 1) * 128 + 1 * (y 0).val = (y 0).val; omega
  rw [r0, r1, w2, w3, w4, w5]

/-- An index of the array is in point `t`'s block iff each coordinate is in the block's range on its axis. -/
theorem mem_block (t : Fin cfg0.N) (i : S16x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v0).slice (win0_6.rect t)).set ↔ _
  rw [View.set_slice_whole, Rect.mem_set_unit]
  exact Iff.rfl

/-- Every entry of the result array lies in the block of the point its batch row belongs to. -/
theorem covered (i : S16x128.Idx) : ∃ t : Fin cfg0.N, (cfg0.win 6).flush t = true ∧ i ∈ ((cfg0.win 6).blk t).view.set := by
  have hi0 : (i 0).val < 16 := (i 0).isLt
  have hi1 : (i 1).val < 128 := (i 1).isLt
  obtain ⟨t, ht⟩ := block_onto ⟨(i 0).val / 8, by omega⟩
  have ht' : win0_6.index t (0 : Fin 2) = (i 0).val / 8 := ht
  obtain ⟨-, -, -, -, -, -, -, -, -, -, -, -, -, g1, -⟩ := block_indices t
  refine ⟨t, flush0_6 t, ?_⟩
  rw [mem_block]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 128 ≤ (i 1).val ∧ (i 1).val < win0_6.index t (1 : Fin 2) * 128 + 128; omega

/-- THE RESULT ARRAY after the run is `result` of the argument arrays. -/
theorem final (c : Dev nD) : (dats m 0 c).arrAt 6 cfg0.N = whole m c :=
  (dats m 0 c).arrAt_eq_of_cover 6 (whole m c) (fun t _ => flushed_eq m c t) covered

/-- The kernel's run: the result array ends at `result` of the arguments, the arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.WholeArray

end
-- ==== Proof.ReferenceRow.lean ====
/-
  The reference's result, one entry at a time.

  The reference contracts each whole `[16, 196, 768]` token array with its weights, rectifies, sums over the tokens (from the
  initial value `0`), multiplies the two pooled arrays, projects and adds the scaled bias broadcast down the batch. At
  `(b, o)` that is `outRow` of batch row `b` of the two token arrays at column `o`: the initial `0` of each token sum is
  the additive unit, and everything else is the same sums and products.
-/
import proofs.«164623_j90563680403989_1_alg».proof.Proof.Gen.ReferenceIdeal.Read
import proofs.«164623_j90563680403989_1_alg».proof.Proof.RowFormula
import Idealize.ShloMosaic.Lib.ValueIdx
import Idealize.ShloMosaic.PureOps.Ideal.Laws

noncomputable section

namespace Cert.ReferenceIdeal.RefRow

open Cert.ReferenceIdeal Cert.ReferenceIdeal.Gen Cert.ReferenceIdeal.Read Idealize.ShloMosaic Idealize.ShloMosaic.ValueIdx
  Cert.RowFormula

/-- The first contraction's operand indices under the token sum: token `n` of batch row `b`, feature `k`; weight `(k, h)`. -/
theorem lidx_v0 (b : Fin 16) (h : Fin 512) (n : Fin 196) (k : Fin 768) :
    lidx_main_v0 (idx_main_v4 (ix2 b h) n) k = ix3 b n k :=
  funext fun a => Fin.ext (by match a with | ⟨0, _⟩ => rfl | ⟨1, _⟩ => rfl | ⟨2, _⟩ => rfl)
theorem ridx_v0 (b : Fin 16) (h : Fin 512) (n : Fin 196) (k : Fin 768) :
    ridx_main_v0 (idx_main_v4 (ix2 b h) n) k = ix2 k h :=
  funext fun a => Fin.ext (by match a with | ⟨0, _⟩ => rfl | ⟨1, _⟩ => rfl)
/-- The same for the second contraction. -/
theorem lidx_v2 (b : Fin 16) (h : Fin 512) (n : Fin 196) (k : Fin 768) :
    lidx_main_v2 (idx_main_v5 (ix2 b h) n) k = ix3 b n k :=
  funext fun a => Fin.ext (by match a with | ⟨0, _⟩ => rfl | ⟨1, _⟩ => rfl | ⟨2, _⟩ => rfl)
theorem ridx_v2 (b : Fin 16) (h : Fin 512) (n : Fin 196) (k : Fin 768) :
    ridx_main_v2 (idx_main_v5 (ix2 b h) n) k = ix2 k h :=
  funext fun a => Fin.ext (by match a with | ⟨0, _⟩ => rfl | ⟨1, _⟩ => rfl)
/-- The projection's operand indices: pooled entry `(b, h)`, projection weight `(h, o)`. -/
theorem lidx_v7 (b : Fin 16) (o : Fin 128) (h : Fin 512) : lidx_main_v7 (ix2 b o) h = ix2 b h :=
  funext fun a => Fin.ext (by match a with | ⟨0, _⟩ => rfl | ⟨1, _⟩ => rfl)
theorem ridx_v7 (b : Fin 16) (o : Fin 128) (h : Fin 512) : ridx_main_v7 (ix2 b o) h = ix2 h o :=
  funext fun a => Fin.ext (by match a with | ⟨0, _⟩ => rfl | ⟨1, _⟩ => rfl)
/-- The bias entry the two broadcasts read at `(b, o)`. -/
theorem idx_bias (b : Fin 16) (o : Fin 128) : idx_main_v10 (idx_main_v11 (ix2 b o)) = ix1 o :=
  funext fun a => Fin.ext (by match a with | ⟨0, _⟩ => rfl)

/-- The pooled stage of the first token array at `(b, h)`. -/
theorem pooled1 (x : (⟨S16x196x768, .f32⟩ : BufTy).Contents (Elt Ideal)) (W : (⟨S768x512, .f32⟩ : BufTy).Contents (Elt Ideal))
    (b : Fin 16) (h : Fin 512) : val_main_v4 (F := Ideal) x W (ix2 b h) = pooled (rowOf x b) W h := by
  rw [val_main_v4_apply, val_main_cst_apply]
  show Ideal.ofBits .f32 0x00000000#32 + _ = _
  rw [Ideal.ofBits_zero_f32, zero_add]
  unfold pooled
  refine Finset.sum_congr rfl fun n _ => ?_
  rw [val_main_v1_apply, val_main_v0_apply, val_main_call0_v0_apply, val_main_call0_cst_apply]
  simp only [lidx_v0, ridx_v0]
  rfl

/-- The pooled stage of the second token array at `(b, h)`. -/
theorem pooled2 (x : (⟨S16x196x768, .f32⟩ : BufTy).Contents (Elt Ideal)) (W : (⟨S768x512, .f32⟩ : BufTy).Contents (Elt Ideal))
    (b : Fin 16) (h : Fin 512) : val_main_v5 (F := Ideal) x W (ix2 b h) = pooled (rowOf x b) W h := by
  rw [val_main_v5_apply, val_main_cst_0_apply]
  show Ideal.ofBits .f32 0x00000000#32 + _ = _
  rw [Ideal.ofBits_zero_f32, zero_add]
  unfold pooled
  refine Finset.sum_congr rfl fun n _ => ?_
  rw [val_main_v3_apply, val_main_v2_apply, val_main_call1_v0_apply, val_main_call1_cst_apply]
  simp only [lidx_v2, ridx_v2]
  rfl

/-- THE REFERENCE'S RESULT is `result` of its six arguments. -/
theorem ref_eq (x1 x2 : (⟨S16x196x768, .f32⟩ : BufTy).Contents (Elt Ideal)) (W1 W2 : (⟨S768x512, .f32⟩ : BufTy).Contents (Elt Ideal))
    (Wp : (⟨S512x128, .f32⟩ : BufTy).Contents (Elt Ideal)) (bp : (⟨S128, .f32⟩ : BufTy).Contents (Elt Ideal)) :
    val_main_v12 (F := Ideal) x1 x2 W1 W2 Wp bp = result x1 x2 W1 W2 Wp bp := by
  funext i
  obtain ⟨b, o, rfl⟩ : ∃ (b : Fin 16) (o : Fin 128), i = ix2 b o := ⟨i 0, i 1, eq_ix2 i⟩
  rw [result_apply, val_main_v12_apply, val_main_v7_apply, val_main_v11_apply, val_main_v10_apply, val_main_v9_apply,
    val_main_v8_apply, val_main_cst_1_apply]
  unfold outRow
  rw [idx_bias]
  refine congrArg₂ (fun a b : EReal => a + b) (Finset.sum_congr rfl fun h _ => ?_) rfl
  rw [val_main_v6_apply, lidx_v7, ridx_v7]
  exact congrArg₂ (fun a b : EReal => a * b)
    (congrArg₂ (fun a b : EReal => a * b) (pooled1 x1 W1 b h) (pooled2 x2 W2 b h)) rfl

end Cert.ReferenceIdeal.RefRow

end
-- ==== Proof.lean ====
/-
  The kernel pools two token arrays and projects their product; the reference does the same with whole-array operations.

  For inputs `x1, x2 : [16, 196, 768]`, `W1, W2 : [768, 512]`, `Wp : [512, 128]`, `bp : [128]` both programs compute, at
  batch row `b` and output column `o`,

      ∑ h, (∑ n, relu (x1[b, n, :] · W1[:, h])) * (∑ m, relu (x2[b, m, :] · W2[:, h])) * Wp[h, o]  +  bp[o] * 38416

  (`Cert.RowFormula.result`). The kernel works on eight batch rows per grid point, with the batch and token axes flattened
  into one row axis for its matrix products and the operands narrowed to bf16 first; on extended reals a change of format is
  the identity, a matrix product into the zero accumulator is the plain sum of products, and the reference's token sums
  start from an initial `0` that is the additive unit. So the two sides are the same sums and products of the same
  numbers, and no finiteness of the inputs is used.

  * `BlockRow`: the kernel body's stored value, entry by entry, is `outRow` of a batch row of its blocks.
  * `WholeArray`: the two output blocks are the two halves of `result` of the whole arguments, and cover the array.
  * `ReferenceRow`: the reference's composed term, entry by entry, is `result`.
  The three frames are the generated ones (the reference's is its generated run with the result dropped), and the kernel's
  idealization rewrote nothing, so `preserves` is `True`.
-/
import proofs.«164623_j90563680403989_1_alg».proof.Defs
import proofs.«164623_j90563680403989_1_alg».proof.Proof.Gen.Kernel
import proofs.«164623_j90563680403989_1_alg».proof.Proof.Gen.Kernel.Skeleton
import proofs.«164623_j90563680403989_1_alg».proof.Proof.Gen.Kernel.Launch
import proofs.«164623_j90563680403989_1_alg».proof.Proof.Gen.Kernel.Points
import proofs.«164623_j90563680403989_1_alg».proof.Proof.Gen.Kernel.Frame
import proofs.«164623_j90563680403989_1_alg».proof.Proof.Gen.KernelIdeal
import proofs.«164623_j90563680403989_1_alg».proof.Proof.Gen.KernelIdeal.Skeleton
import proofs.«164623_j90563680403989_1_alg».proof.Proof.Gen.KernelIdeal.Launch
import proofs.«164623_j90563680403989_1_alg».proof.Proof.Gen.KernelIdeal.Points
import proofs.«164623_j90563680403989_1_alg».proof.Proof.Gen.KernelIdeal.Frame
import proofs.«164623_j90563680403989_1_alg».proof.Proof.Gen.ReferenceIdeal
import proofs.«164623_j90563680403989_1_alg».proof.Proof.Gen.Pre_finite_inputs
import proofs.«164623_j90563680403989_1_alg».proof.Proof.Gen.KernelIdeal.Value
import proofs.«164623_j90563680403989_1_alg».proof.Proof.Gen.ReferenceIdeal.Run
import proofs.«164623_j90563680403989_1_alg».proof.Proof.Gen.ReferenceIdeal.Read
import proofs.«164623_j90563680403989_1_alg».proof.Proof.WholeArray
import proofs.«164623_j90563680403989_1_alg».proof.Proof.ReferenceRow
import Idealize.ShloMosaic.Adequacy
import Idealize.ShloMosaic.Init

noncomputable section

namespace Cert.Proof

open Idealize.ShloMosaic Idealize.SL.Sem Idealize.ShloMosaic.TcCoe

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with `result` of the (agreeing) arguments in their result arrays. -/
theorem algebraic : Cert.algebraic_KernelIdeal_ReferenceIdeal := by
  intro m ρ m' ρ' _ hagree
  refine ⟨fun c => Cert.KernelIdeal.WholeArray.whole m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefRow.ref_eq]
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
